-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4096x1024 : Shape := ⟨2, ![4096, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4x2048x1024 .f32) (main_arg1 : FVec F S4096x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4x2048x1024 : Shape := ⟨3, ![4, 2048, 1024]⟩
abbrev S4096x1024 : Shape := ⟨2, ![4096, 1024]⟩
abbrev S4x512x1024 : Shape := ⟨3, ![4, 512, 1024]⟩
abbrev S2048x1024 : Shape := ⟨2, ![2048, 1024]⟩
abbrev S512x1024 : Shape := ⟨2, ![512, 1024]⟩
abbrev S1x512x1024 : Shape := ⟨3, ![1, 512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S4x2048x1024, .f32⟩
  | .local _ .vmem, ⟨0, _⟩ => ⟨S4x512x1024, .f32⟩
  | .local _ .vmem, ⟨1, _⟩ => ⟨S4x512x1024, .f32⟩
  | .local _ .vmem, ⟨2, _⟩ => ⟨S2048x1024, .f32⟩
  | .local _ .vmem, ⟨3, _⟩ => ⟨S4x512x1024, .f32⟩
  | .local _ .vmem, ⟨4, _⟩ => ⟨S4x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c512_i32 : BitVec 32 := 512#32
  let v1 : BitVec 32 := Scalar.muli arg0 c512_i32
  let v2 : Index := Scalar.indexCast v1
  let c0_2 : Index := 0#32
  ![v2.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x512x1024_S4x512x1024_0_0_0 : ∀ a, (![0, 0, 0] : Fin 3 → Nat) a + S4x512x1024.size a ≤ S4x512x1024.size a
  h_S4x512x1024 : 0 < S4x512x1024.numel
  h_S512x1024 : 0 < S512x1024.numel
  shapeCasts_S512x1024_S1x512x1024 : S512x1024.ShapeCasts S1x512x1024
  broadcasts_S1x512x1024_S4x512x1024 : S1x512x1024.Broadcasts S4x512x1024
  hrank0 : 0 < grid0.rank
  k0_off1_inb : ∀ i : grid0.Coords, ∀ a, (k0_off1 i) a + S512x1024.size a ≤ S2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1024.size a ≤ S4x2048x1024.size a
  hwx0_0 : ∀ i : grid0.Coords, EltTy.bits .f32 = 32 ∨ (Rect.block (s := S4x2048x1024) S4x512x1024.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x1024.size a
  hwx0_1 : ∀ i : grid0.Coords, EltTy.bits .f32 = 32 ∨ (Rect.block (s := S4096x1024) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x1024.size a ≤ S4x2048x1024.size a
  hwx0_2 : ∀ i : grid0.Coords, EltTy.bits .f32 = 32 ∨ (Rect.block (s := S4x2048x1024) S4x512x1024.size (cc0_transform_2 i) (hinb0_2 i)).WholeWords (EltTy.packing .f32)

variable [Facts₀]

abbrev win0_0 : Pipeline.Window sig grid0 :=
  Pipeline.Window.ofSpec (Memref.whole main_arg0) S4x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S4096x1024 : Shape := ⟨2, ![4096, 1024]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S2048x1024 : Shape := ⟨2, ![2048, 1024]⟩
abbrev S1x2048x1024 : Shape := ⟨3, ![1, 2048, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S1, .i32⟩
  | .hbm, ⟨12, _⟩ => ⟨S_, .i32⟩
  | .hbm, ⟨13, _⟩ => ⟨S2048x1, .i32⟩
  | .hbm, ⟨14, _⟩ => ⟨S2048x1, .i1⟩
  | .hbm, ⟨15, _⟩ => ⟨S1x1, .i32⟩
  | .hbm, ⟨16, _⟩ => ⟨S2048x1, .i32⟩
  | .hbm, ⟨17, _⟩ => ⟨S2048x1, .i1⟩
  | .hbm, ⟨18, _⟩ => ⟨S2048x1, .i1⟩
  | .hbm, ⟨19, _⟩ => ⟨S_, .i1⟩
  | .hbm, ⟨20, _⟩ => ⟨S2048, .i1⟩
  | .hbm, ⟨21, _⟩ => ⟨S2048x1024, .f32⟩
  | .hbm, ⟨22, _⟩ => ⟨S2048x1024, .i1⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S1x2048x1024, .f32⟩
  | .hbm, ⟨27, _⟩ => ⟨S4x2048x1024, .f32⟩
  | .hbm, ⟨28, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S2048x1024_0 : S2048.BroadcastsInDim S2048x1024 (![0] : Fin 1 → Fin S2048x1024.rank)
  bcast_S_S2048x1024 : S_.BroadcastsInDim S2048x1024 (![] : Fin 0 → Fin S2048x1024.rank)
  bcast_S2048x1024_S1x2048x1024_1_2 : S2048x1024.BroadcastsInDim S1x2048x1024 (![1, 2] : Fin 2 → Fin S1x2048x1024.rank)
  bcast_S1x2048x1024_S4x2048x1024_0_1_2 : S1x2048x1024.BroadcastsInDim S4x2048x1024 (![0, 1, 2] : Fin 3 → Fin S4x2048x1024.rank)
  gather_S4096x1024_S2048x1_S2048x1024_1_0_n_n_0_1_11024_wf : GatherDims.WF S4096x1024 S2048x1 S2048x1024 [1] [0] [] [0] [] 1 ![1, 1024]

variable [Facts₀]

def gather_S4096x1024_S2048x1_S2048x1024_1_0_n_n_0_1_11024 : GatherDims S4096x1024 S2048x1 S2048x1024 where
  offsetDims := [1]
  collapsedSliceDims := [0]
  operandBatchingDims := []
  startIndicesBatchingDims := []
  startIndexMap := [0]
  indexVectorDim := 1
  sliceSizes := ![1, 1024]
  wf := gather_S4096x1024_S2048x1_S2048x1024_1_0_n_n_0_1_11024_wf

class Facts : Prop extends Facts₀ where

variable [Facts]
-- ==== Proof.Spec.lean ====
/-
  The function both programs compute, over literal shapes: for x of shape [4, 2048, 1024] and a table of shape
  [4096, 1024], the array whose entry at batch b, row p, column q is x at (b, p, q) plus the table at (p, q) — the
  table's first 2048 rows laid under every batch and added.  One sum per entry, the same two summands in the same
  order on both sides, so no law of the arithmetic is needed and the function is stated at any float instance.
-/
import Idealize.ShloMosaic.PureOps
import Idealize.ShloMosaic.Lib.ValueIdx

noncomputable section

namespace Cert.Spec

open Idealize.ShloMosaic Idealize.ShloMosaic.ValueIdx

variable {F : FTy → Type} [FloatOps F]

/-- The shape of x and of the result. -/
abbrev SX : Shape := ⟨3, ![4, 2048, 1024]⟩
/-- The shape of the positional table. -/
abbrev ST : Shape := ⟨2, ![4096, 1024]⟩

/-- Row p, column q of the table, for p one of its first 2048 rows. -/
abbrev tableAt (p : Fin 2048) (q : Fin 1024) : ST.Idx := ix2 (⟨p.val, by have := p.isLt; omega⟩ : Fin 4096) q

/-- x plus the table's first 2048 rows under every batch. -/
def posAdd (x : SX.Idx → F .f32) (t : ST.Idx → F .f32) : SX.Idx → F .f32 :=
  fun i => FloatOps.addf (x i) (t (tableAt (i 1) (i 2)))

theorem posAdd_apply (x : SX.Idx → F .f32) (t : ST.Idx → F .f32) (b : Fin 4) (p : Fin 2048) (q : Fin 1024) :
    posAdd x t (ix3 b p q) = FloatOps.addf (x (ix3 b p q)) (t (tableAt p q)) := rfl

end Cert.Spec

end
-- ==== Proof.KernelValue.lean ====
/-
  What the kernel's output array holds after the run: x plus the table's first 2048 rows under every batch.

  Grid point t stages block t of x along the row axis — batches 0 … 3, rows 512·t … 512·t + 511, every column —
  and the table's first 2048 rows whole.  Its body stores ONE value over the whole output block: the x block plus,
  under every batch, the 512 rows of the staged table that start at row 512·t.  So entry (b, r, d) of what point t
  writes back is x at (b, 512·t + r, d) plus the table at (512·t + r, d): the block of the whole-array function
  `posAdd` at point t.  The four blocks tile the row axis, so the array ends holding that function.
-/
import proofs.«103357_g66829691126127_cont_sun_c4_580_9_alg».proof.Proof.Gen.KernelIdeal.Value
import proofs.«103357_g66829691126127_cont_sun_c4_580_9_alg».proof.Proof.Spec
import Idealize.ShloMosaic.Lib.ValueIdx
import Idealize.ShloMosaic.Lib.Pipeline.Value

noncomputable section

namespace Cert.KernelIdeal.KernelValue

open Cert.KernelIdeal Cert.KernelIdeal.Gen Idealize.ShloMosaic Idealize.ShloMosaic.TcCoe Idealize.ShloMosaic.Tactic
open Idealize.SL.Sem Idealize.ShloMosaic.ValueIdx
open Idealize.ShloMosaic.Pipeline (Dat)
open Cert.Spec (tableAt posAdd posAdd_apply)

variable {F : FTy → Type} [FloatOps F]

/-! ## The body's one store -/

theorem zero_off : (![0, 0, 0] : Fin 3 → Nat) = fun _ => 0 := funext fun a => by fin_cases a <;> rfl

/-- What the body leaves in the output's staging buffer: its one payload, of the x block as staged and of the 512
    table rows it loads at the point's row offset. -/
theorem staged_eq (c : Dev nD) (i : grid0.Coords) (arg1 : Memref sig .tc .vmem S4x512x1024 .f32) (harg1 : arg1.IsWhole)
    (arg2 : Memref sig .tc .vmem S2048x1024 .f32) (harg2 : arg2.IsWhole)
    (arg3 : Memref sig .tc .vmem S4x512x1024 .f32) (harg3 : arg3.IsWhole)
    (x0 : Vec F S4x512x1024 .f32) (x1 : Vec F S2048x1024 .f32) :
    out0_A_2 c i arg1 harg1 arg2 harg2 arg3 harg3 x0 x1
      = k0_pay1 x0 (View.ld x1 (Rect.unit (s := S2048x1024) (k0_off1 i) S512x1024.size (k0_off1_inb i))) := by
  unfold out0_A_2
  rw [View.read_writes_eq_canon _ _ _ (cover0_A_2 c i arg1 harg1 arg2 harg2 arg3 harg3 x0 x1)]
  unfold kernelRun0_A
  dsimp only
  sl_unfold_words
  rw [View.canon_unit_zero zero_off]
  simp only [View.readAt_eq_ld, harg1.read_unread, harg2.read_unread, View.ld_unit_zero (S := S4x512x1024) zero_off]

/-- The payload at batch b, row r, column d of the block: the x block's entry plus row r, column d of the loaded
    table rows — the shape cast adds a leading unit axis and the broadcast repeats it under the four batches. -/
theorem payload_apply (v0 : Vec F S4x512x1024 .f32) (v3 : Vec F S512x1024 .f32) (b : Fin 4) (r : Fin 512) (d : Fin 1024) :
    k0_pay1 v0 v3 (ix3 b r d) = FloatOps.addf (v0 (ix3 b r d)) (v3 (ix2 r d)) := by
  unfold k0_pay1
  show FloatOps.addf (v0 (ix3 b r d)) (broadcastTo S4x512x1024
    (shapeCast S1x512x1024 v3 shapeCasts_S512x1024_S1x512x1024) broadcasts_S1x512x1024_S4x512x1024 (ix3 b r d)) = _
  congr 1
  refine (broadcastTo_apply _ _ (ix3 b r d) (ix3 (0 : Fin 1) r d) ?_).trans ?_
  · intro a
    match a with
    | ⟨0, _⟩ => rfl
    | ⟨1, _⟩ => rfl
    | ⟨2, _⟩ => rfl
  · refine (shapeCast_addUnit_apply ![512, 1024] v3 _ (ix3 (0 : Fin 1) r d)).trans (congrArg v3 ?_)
    funext a
    match a with
    | ⟨0, _⟩ => rfl
    | ⟨1, _⟩ => rfl

/-- The same at any index y of the block, for rows loaded through any unit-stride rectangle of the staged table: the
    table row read is the rectangle's row for y's row, at y's column. -/
theorem point_apply (xb : Vec F S4x512x1024 .f32) (tb : Vec F S2048x1024 .f32) (off : Fin 2 → Nat)
    (inb : ∀ a, off a + S512x1024.size a ≤ S2048x1024.size a) (y : S4x512x1024.Idx) :
    k0_pay1 xb (View.ld tb (Rect.unit (s := S2048x1024) off S512x1024.size inb)) y
      = FloatOps.addf (xb y) (tb ((Rect.unit (s := S2048x1024) off S512x1024.size inb).emb
          (ix2 (⟨(y 1).val, (y 1).isLt⟩ : Fin 512) (⟨(y 2).val, (y 2).isLt⟩ : Fin 1024)))) := by
  obtain ⟨b, r, d, rfl⟩ : ∃ (b : Fin 4) (r : Fin 512) (d : Fin 1024), y = ix3 b r d := ⟨y 0, y 1, y 2, eq_ix3 y⟩
  exact payload_apply xb _ b r d

/-! ## The index maps, decided over the four grid points -/

/-- The x window and the output window move together along the row axis and sit at block 0 on the others; the table
    window never moves; the body's row offset is 512 times the point's row block. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = win0_2.index t (2 : Fin 3)
    ∧ win0_1.index t (0 : Fin 2) = 0 ∧ win0_1.index t (1 : Fin 2) = 0
    ∧ win0_2.index t (0 : Fin 3) = 0 ∧ win0_2.index t (2 : Fin 3) = 0 ∧ win0_2.index t (1 : Fin 3) ≤ 3
    ∧ k0_off1 (grid0.coords t) (0 : Fin 2) = win0_2.index t (1 : Fin 3) * 512 ∧ k0_off1 (grid0.coords t) (1 : Fin 2) = 0 :=
  (by decide +kernel : ∀ t : Fin grid0.N, _)

/-- Every row block is some point's. -/
theorem idx_onto : ∀ k : Fin 4, ∃ t : Fin cfg0.N, win0_2.index t = ![0, k.val, 0] :=
  (by decide +kernel : ∀ k : Fin 4, ∃ t : Fin grid0.N, win0_2.index t = ![0, k.val, 0])

variable (m : (ℓ : Loc nD τ sig) → Buf (Elt F) ℓ) (ρ : Dev nD → PrngReg)

/-! ## What a point writes back -/

/-- What point t writes back is block t of `posAdd` of the two argument arrays as the region finds them. -/
theorem flushed_eq (c : Dev nD) (t : Fin cfg0.N) :
    (dats m 0 c).flushed 2 t
      = ((cfg0.win 2).blk t).view.read (Elt F) (posAdd (V m c main_arg0) (V m c main_arg1)) := by
  rw [Value.flushed2_A, staged_eq]
  obtain ⟨e0, e1, e2, e3, e4, e5, e6, e7, e8, e9⟩ := idx_facts t
  funext j
  refine (point_apply (iblk m c 0 t) (iblk m c 1 t) _ _ j).trans ?_
  show FloatOps.addf (V m c main_arg0 (((cfg0.win 0).blk t).view.emb j))
      (V m c main_arg1 (((cfg0.win 1).blk t).view.emb ((Rect.unit (s := S2048x1024) (k0_off1 (grid0.coords t)) S512x1024.size
        (k0_off1_inb (grid0.coords t))).emb (ix2 (⟨(j 1).val, (j 1).isLt⟩ : Fin 512) (⟨(j 2).val, (j 2).isLt⟩ : Fin 1024)))))
    = FloatOps.addf (V m c main_arg0 (((cfg0.win 2).blk t).view.emb j))
      (V m c main_arg1 (tableAt ((((cfg0.win 2).blk t).view.emb j) 1) ((((cfg0.win 2).blk t).view.emb j) 2)))
  have hx : ((cfg0.win 0).blk t).view.emb j = ((cfg0.win 2).blk t).view.emb j := by
    funext a; apply Fin.ext
    match a with
    | ⟨0, _⟩ => show win0_0.index t (0 : Fin 3) * 4 + 1 * (j 0).val = win0_2.index t (0 : Fin 3) * 4 + 1 * (j 0).val; omega
    | ⟨1, _⟩ => show win0_0.index t (1 : Fin 3) * 512 + 1 * (j 1).val = win0_2.index t (1 : Fin 3) * 512 + 1 * (j 1).val; omega
    | ⟨2, _⟩ => show win0_0.index t (2 : Fin 3) * 1024 + 1 * (j 2).val = win0_2.index t (2 : Fin 3) * 1024 + 1 * (j 2).val; omega
  have ht : ((cfg0.win 1).blk t).view.emb ((Rect.unit (s := S2048x1024) (k0_off1 (grid0.coords t)) S512x1024.size
        (k0_off1_inb (grid0.coords t))).emb (ix2 (⟨(j 1).val, (j 1).isLt⟩ : Fin 512) (⟨(j 2).val, (j 2).isLt⟩ : Fin 1024)))
      = tableAt ((((cfg0.win 2).blk t).view.emb j) 1) ((((cfg0.win 2).blk t).view.emb j) 2) := by
    funext a; apply Fin.ext
    match a with
    | ⟨0, _⟩ =>
      show win0_1.index t (0 : Fin 2) * 2048 + 1 * (k0_off1 (grid0.coords t) (0 : Fin 2) + 1 * (j 1).val)
        = win0_2.index t (1 : Fin 3) * 512 + 1 * (j 1).val
      omega
    | ⟨1, _⟩ =>
      show win0_1.index t (1 : Fin 2) * 1024 + 1 * (k0_off1 (grid0.coords t) (1 : Fin 2) + 1 * (j 2).val)
        = win0_2.index t (2 : Fin 3) * 1024 + 1 * (j 2).val
      omega
  rw [hx, ht]

/-! ## The blocks tile the array -/

/-- An index of the array is in point t's block iff each coordinate is in the block's range on its axis. -/
theorem mem_blk (t : Fin cfg0.N) (i : S4x2048x1024.Idx) :
    i ∈ ((cfg0.win 2).blk t).view.set ↔ ∀ a : Fin 3, win0_2.index t a * S4x512x1024.size a ≤ (i a).val
      ∧ (i a).val < win0_2.index t a * S4x512x1024.size a + S4x512x1024.size a := by
  show i ∈ ((View.whole main_v0).slice (win0_2.rect t)).set ↔ _
  rw [View.set_slice_whole, Rect.mem_set_unit]
  exact Iff.rfl

/-- Every index of the array is in some point's block: row r is in the block of point r / 512. -/
theorem cover (i : S4x2048x1024.Idx) :
    ∃ t : Fin cfg0.N, (cfg0.win 2).flush t = true ∧ i ∈ ((cfg0.win 2).blk t).view.set := by
  have hi0 : (i 0).val < 4 := (i 0).isLt
  have hi1 : (i 1).val < 2048 := (i 1).isLt
  have hi2 : (i 2).val < 1024 := (i 2).isLt
  obtain ⟨t, ht⟩ := idx_onto ⟨(i 1).val / 512, by omega⟩
  have q0 : win0_2.index t (0 : Fin 3) = 0 := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ =>
    show win0_2.index t (0 : Fin 3) * 4 ≤ (i 0).val ∧ (i 0).val < win0_2.index t (0 : Fin 3) * 4 + 4
    omega
  | ⟨1, _⟩ =>
    show win0_2.index t (1 : Fin 3) * 512 ≤ (i 1).val ∧ (i 1).val < win0_2.index t (1 : Fin 3) * 512 + 512
    omega
  | ⟨2, _⟩ =>
    show win0_2.index t (2 : Fin 3) * 1024 ≤ (i 2).val ∧ (i 2).val < win0_2.index t (2 : Fin 3) * 1024 + 1024
    omega

/-! ## The array after the run -/

/-- The output array ends holding `posAdd` of the two arguments as launched. -/
theorem final (c : Dev nD) :
    (dats m 0 c).arrAt 2 cfg0.N
      = posAdd (m ((c : Thread nD τ).loc main_arg0)) (m ((c : Thread nD τ).loc main_arg1)) :=
  (dats m 0 c).arrAt_eq_of_cover 2 (posAdd (V m c main_arg0) (V m c main_arg1)) (fun t _ => flushed_eq m c t) cover

/-- Every weakly fair execution of the kernel's program terminates with the output array at `posAdd` of the arguments
    as launched, and the arguments unchanged. -/
theorem run : θ_run defs (onTc (τ := τ) (main (F := F))) ⟨m, fun _ => 0, ρ⟩ fun r => ∀ c : Dev nD,
      r.2.mem ((c : Thread nD τ).loc main_v0)
          = posAdd (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KernelValue

end
-- ==== Proof.RefRun.lean ====
/-
  The reference program's `@main` as one straight line of host operations, and its run.

  `reference(x, table) = x + take(table, arange(2048), axis=0)[None]`.  jax outlines `jnp.take` as a private
  function which normalises the positions (a negative position has the table's height 4096 added: a `select`
  outlined in turn), gathers one row of the table per position, and masks each gathered row by whether its
  position lies in [0, 4095], writing a fill word on a row whose position does not.  Inlining the two functions at
  their calls leaves twenty-seven operations: the position vector, twenty-three of the take, the two broadcasts that
  lay the gathered rows under every batch, and the sum with `x`.  Every weakly fair execution of that line terminates
  with each buffer at the operations' fold over the launch contents.
-/
import proofs.«103357_g66829691126127_cont_sun_c4_580_9_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- `@main`'s operations in order, the take's and the select's listed where they are called, over the buffers the
    call's record names. -/
abbrev ops : List (HloOp τ sig (Elt F)) :=
  [ nullary main_v0 (iotaInDim S2048 32 0),
    TRef.nullary main_call0.c (constantI S_ 32 0#32),
    TRef.unary main_call0.c main_call0.v0 (broadcastInDim S2048 ![] bcast_S_S2048),
    TRef.binary (.of main_v0) main_call0.v0 main_call0.v1 (cmpi .slt),
    TRef.nullary main_call0.c_0 (constantI S_ 32 4096#32),
    TRef.unary main_call0.c_0 main_call0.v2 (broadcastInDim S2048 ![] bcast_S_S2048),
    TRef.binary (.of main_v0) main_call0.v2 main_call0.v3 addi,
    TRef.ternary main_call0.v1 main_call0.v3 (.of main_v0) main_call0.call0.v0 select,
    TRef.unary main_call0.call0.v0 main_call0.v5 (broadcastInDim S2048x1 ![0] bcast_S2048_S2048x1_0),
    TRef.nullary main_call0.c_1 (constantI S1 32 4095#32),
    TRef.nullary main_call0.c_2 (constantI S_ 32 0#32),
    TRef.unary main_call0.c_2 main_call0.v6 (broadcastInDim S2048x1 ![] bcast_S_S2048x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2048x1 ![0, 1] bcast_S1x1_S2048x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x1_S2048_d1 h_S_),
    TRef.binary (.of main_arg1) main_call0.v5 main_call0.v13 (fun x i => Host.gather gather_S4096x1024_S2048x1_S2048x1024_1_0_n_n_0_1_11024 x i),
    TRef.unary main_call0.v12 main_call0.v14 (broadcastInDim S2048x1024 ![0] bcast_S2048_S2048x1024_0),
    TRef.nullary main_call0.cst (constant S_ .f32 0x7FC00000#32),
    TRef.unary main_call0.cst main_call0.v15 (broadcastInDim S2048x1024 ![] bcast_S_S2048x1024),
    TRef.ternary main_call0.v14 main_call0.v13 main_call0.v15 main_call0.v16 select,
    unary main_v1 main_v2 (broadcastInDim S1x2048x1024 ![1, 2] bcast_S2048x1024_S1x2048x1024_1_2 : (⟨S2048x1024, .f32⟩ : BufTy).Contents (Elt F) → (⟨S1x2048x1024, .f32⟩ : BufTy).Contents (Elt F)),
    unary main_v2 main_v3 (broadcastInDim S4x2048x1024 ![0, 1, 2] bcast_S1x2048x1024_S4x2048x1024_0_1_2 : (⟨S1x2048x1024, .f32⟩ : BufTy).Contents (Elt F) → (⟨S4x2048x1024, .f32⟩ : BufTy).Contents (Elt F)),
    binary main_arg0 main_v3 main_v4 (addf : (⟨S4x2048x1024, .f32⟩ : BufTy).Contents (Elt F) → (⟨S4x2048x1024, .f32⟩ : BufTy).Contents (Elt F) → (⟨S4x2048x1024, .f32⟩ : BufTy).Contents (Elt F)) ]

set_option maxRecDepth 1024 in
/-- `@main` is that line: the two functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub ..⟩

/-- Every weakly fair execution of `@main` terminates, each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefSpec.lean ====
/-
  What the reference computes, stage by stage, as pure functions of its two arguments.

  The position vector is 0, 1, …, 2047.  The take first adds the table's height 4096 to a negative position:
  none is negative, so the positions stay as they are.  Laid as a column they are the gather's start indices; each
  is tested against [0, 4095] and the two tests are and-ed along the column's one-element axis: every position
  passes.  The gather reads, for row p and column q, the table at the row its start index names, read as a signed
  integer and clamped into [0, 4095]: row p itself.  Rows whose position passed the range test keep the gathered
  words (the others would take a fill word): all do.  So the taken rows are the table's first 2048 rows, and the
  result, at batch b, row p, column q, is x at (b, p, q) plus the table at (p, q).
-/
import proofs.«103357_g66829691126127_cont_sun_c4_580_9_alg».proof.Proof.Gen.ReferenceIdeal
import Idealize.ShloMosaic.Lib.ValueIdx
import Idealize.ShloMosaic.Lib.StableHlo.Predicate
import Idealize.ShloMosaic.Lib.ReduceAll

noncomputable section

namespace Cert.ReferenceIdeal.RefSpec

open Cert.ReferenceIdeal Cert.ReferenceIdeal.Gen Idealize.ShloMosaic Idealize.ShloMosaic.ValueIdx
open Idealize.ShloMosaic.StableHlo.Predicate

variable {F : FTy → Type} [FloatOps F]

/-! ## The stages -/

/-- The positions 0 … 2047. -/
def iota : IVec S2048 32 := iotaInDim S2048 32 0

/-- The positions after the take's normalisation: a negative one has 4096 added. -/
def positions : IVec S2048 32 :=
  select (cmpi .slt iota (broadcastInDim S2048 ![] bcast_S_S2048 (constantI S_ 32 0#32)))
    (addi iota (broadcastInDim S2048 ![] bcast_S_S2048 (constantI S_ 32 4096#32))) iota

/-- The normalised positions as a column: the gather's start indices. -/
def startCol : IVec S2048x1 32 := broadcastInDim S2048x1 ![0] bcast_S2048_S2048x1_0 positions

/-- Per row, whether its start index lies in [0, 4095]. -/
def inRange : IVec S2048 1 :=
  Host.reduce IntOp.andi
    (andi (cmpi .sge startCol (broadcastInDim S2048x1 ![] bcast_S_S2048x1 (constantI S_ 32 0#32)))
      (cmpi .sle startCol (broadcastInDim S2048x1 ![0, 1] bcast_S1x1_S2048x1_0_1
        (broadcastInDim S1x1 ![1] bcast_S1_S1x1_1 (constantI S1 32 4095#32)))))
    (constantI S_ 1 1#1) reducesTo_S2048x1_S2048_d1 h_S_

/-- The rows the take returns: the gathered row where the start index is in range, the fill word elsewhere. -/
def takenRows (t : FVec F S4096x1024 .f32) : FVec F S2048x1024 .f32 :=
  select (broadcastInDim S2048x1024 ![0] bcast_S2048_S2048x1024_0 inRange)
    (Host.gather gather_S4096x1024_S2048x1_S2048x1024_1_0_n_n_0_1_11024 t startCol)
    (broadcastInDim S2048x1024 ![] bcast_S_S2048x1024 (constant S_ .f32 0x7FC00000#32))

/-- The reference's result: x plus the taken rows laid under every batch. -/
def refOut (x : FVec F S4x2048x1024 .f32) (t : FVec F S4096x1024 .f32) : FVec F S4x2048x1024 .f32 :=
  addf x (broadcastInDim S4x2048x1024 ![0, 1, 2] bcast_S1x2048x1024_S4x2048x1024_0_1_2
    (broadcastInDim S1x2048x1024 ![1, 2] bcast_S2048x1024_S1x2048x1024_1_2 (takenRows t)))

/-! ## The integer stages, read at an index -/

theorem iota_apply (p : Fin 2048) : iota (ix1 p) = BitVec.ofNat 32 p.val := rfl

theorem toNat_ofNat_row (p : Fin 2048) : (BitVec.ofNat 32 p.val).toNat = p.val := by
  have := p.isLt
  simp only [BitVec.toNat_ofNat]; omega

/-- No position is negative: the normalisation changes nothing. -/
theorem positions_apply (p : Fin 2048) : positions (ix1 p) = BitVec.ofNat 32 p.val := by
  have hp := toNat_ofNat_row p
  have hlt := p.isLt
  have hneg : ¬ IntOp.cmpi .slt (BitVec.ofNat 32 p.val) 0#32 = 1#1 := by
    rw [slt_iff_toNat (by omega) (by decide)]; simp
  unfold positions select cmpi
  show Scalar.select (IntOp.cmpi .slt (BitVec.ofNat 32 p.val) 0#32) _ (BitVec.ofNat 32 p.val) = _
  unfold Scalar.select
  exact if_neg hneg

/-- The start index of row p is p. -/
theorem startCol_apply (p : Fin 2048) (z : Fin 1) : startCol (ix2 p z) = BitVec.ofNat 32 p.val := by
  unfold startCol broadcastInDim
  refine Eq.trans (congrArg positions ?_) (positions_apply p)
  funext a; match a with | ⟨0, _⟩ => rfl

end Cert.ReferenceIdeal.RefSpec

end
-- ==== Proof.RefTerm.lean ====
/-
  The reference's run, read: each buffer of the straight line holds the fold of the operations before it, and at the
  result buffer that fold is the staged function `refOut` of the two arguments as launched, which themselves no
  operation writes.
-/
import proofs.«103357_g66829691126127_cont_sun_c4_580_9_alg».proof.Proof.RefRun
import proofs.«103357_g66829691126127_cont_sun_c4_580_9_alg».proof.Proof.RefSpec

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefSpec

variable {F : FTy → Type} [FloatOps F]

/-- The fold at the result buffer is the staged function of the arguments: the fold unrolled, each operation's result
    rewritten to its function's value at the buffer it writes and passed over at every other buffer; what is left is the
    stages' composition, spelt out. -/
theorem out_eq (V : Valuation τ sig (Elt F)) :
    after ops V (main_v4 : DevRef τ sig) = refOut (V (main_arg0 : DevRef τ sig)) (V (main_arg1 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- Every weakly fair execution of the reference terminates with its result at `refOut` of the arguments as launched,
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v4).trans (out_eq _), (h c main_arg0).trans (arg0_eq _),
      (h c main_arg1).trans (arg1_eq _)⟩)
    (run_main m ρ)

end Cert.ReferenceIdeal.RefRun

end
-- ==== Proof.RefValue.lean ====
/-
  The reference's result, index by index: at batch b, row p, column q it is x at (b, p, q) plus the table at (p, q).

  Every row's start index passes the range test, so the and-fold along the column's one-element axis, started at 1,
  stays 1; the gather at (p, q) reads the table's row named by start index p — the word p read signed, clamped into
  [0, 4095], which is p — at column q; the select therefore keeps the gathered word, and the two broadcasts lay row p
  under every batch.
-/
import proofs.«103357_g66829691126127_cont_sun_c4_580_9_alg».proof.Proof.RefSpec
import proofs.«103357_g66829691126127_cont_sun_c4_580_9_alg».proof.Proof.Spec

noncomputable section

namespace Cert.ReferenceIdeal.RefSpec

open Cert.ReferenceIdeal Cert.ReferenceIdeal.Gen Idealize.ShloMosaic Idealize.ShloMosaic.ValueIdx
open Idealize.ShloMosaic.StableHlo.Predicate
open Cert.Spec (tableAt posAdd posAdd_apply)

variable {F : FTy → Type} [FloatOps F]

/-! ## The range test -/

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- Start index p is at least 0 and at most 4095. -/
theorem tests_apply (i : S2048x1.Idx) :
    andi (cmpi .sge startCol (broadcastInDim S2048x1 ![] bcast_S_S2048x1 (constantI S_ 32 0#32)))
      (cmpi .sle startCol (broadcastInDim S2048x1 ![0, 1] bcast_S1x1_S2048x1_0_1
        (broadcastInDim S1x1 ![1] bcast_S1_S1x1_1 (constantI S1 32 4095#32)))) i = 1#1 := by
  have hi : i = ix2 (i 0) (i 1) := eq_ix2 i
  have hs : startCol i = BitVec.ofNat 32 (i 0).val := by rw [hi]; exact startCol_apply (i 0) (i 1)
  have hp := toNat_ofNat_row (i 0)
  have hlt : (i 0).val < 2048 := idx2_lt0 i
  show IntOp.andi (IntOp.cmpi .sge (startCol i) 0#32) (IntOp.cmpi .sle (startCol i) 4095#32) = 1#1
  rw [hs]
  refine IntOp.andi_eq_one.2 ⟨(sge_iff_toNat (by omega) (by decide)).2 ?_, (sle_iff_toNat (by omega) (by decide)).2 ?_⟩
  · simp
  · rw [hp]; simp; omega

/-- Every row's position is in range. -/
theorem inRange_apply (j : S2048.Idx) : inRange j = 1#1 := by
  unfold inRange
  rw [Host.reduce_eq_foldl]
  exact foldl_andi_one _ _ fun n _ => tests_apply n

/-! ## The gather -/

/-- The gather at (p, q) reads the table's row p at column q: on the row axis the start index p, signed and clamped
    into [0, 4095]; on the column axis the result's own column. -/
theorem gather_apply {α : Type} (t : S4096x1024.Idx → α) (p : Fin 2048) (q : Fin 1024) :
    Host.gather gather_S4096x1024_S2048x1_S2048x1024_1_0_n_n_0_1_11024 t startCol (ix2 p q) = t (tableAt p q) := by
  unfold Host.gather
  congr 1
  funext a
  refine Fin.ext ?_
  have hp := p.isLt
  match a with
  | ⟨0, _⟩ =>
    show GatherDims.start gather_S4096x1024_S2048x1_S2048x1024_1_0_n_n_0_1_11024 (ix2 p q) startCol 0 + GatherDims.batchCoord gather_S4096x1024_S2048x1_S2048x1024_1_0_n_n_0_1_11024 (ix2 p q) 0
      + GatherDims.offCoord gather_S4096x1024_S2048x1_S2048x1024_1_0_n_n_0_1_11024 (ix2 p q) 0 = p.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S4096x1024_S2048x1_S2048x1024_1_0_n_n_0_1_11024).startIndexMap from List.mem_singleton.mpr rfl)]
    have hsi : (gather_S4096x1024_S2048x1_S2048x1024_1_0_n_n_0_1_11024).siIdx (ix2 p q) ⟨List.idxOf (0 : Fin 2) (gather_S4096x1024_S2048x1_S2048x1024_1_0_n_n_0_1_11024).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi, startCol_apply, toInt_ofNat_small _ (by omega)]
    show min ((p.val : ℤ)).toNat (4096 - 1) = p.val
    rw [Int.toNat_natCast]; omega
  | ⟨1, _⟩ =>
    show GatherDims.start gather_S4096x1024_S2048x1_S2048x1024_1_0_n_n_0_1_11024 (ix2 p q) startCol 1 + GatherDims.batchCoord gather_S4096x1024_S2048x1_S2048x1024_1_0_n_n_0_1_11024 (ix2 p q) 1
      + GatherDims.offCoord gather_S4096x1024_S2048x1_S2048x1024_1_0_n_n_0_1_11024 (ix2 p q) 1 = q.val
    have h1 : (1 : Fin 2) ∈ (gather_S4096x1024_S2048x1_S2048x1024_1_0_n_n_0_1_11024).sKept :=
      (GatherDims.mem_sKept _ _).mpr ⟨by decide, List.not_mem_nil⟩
    have hs : GatherDims.start gather_S4096x1024_S2048x1_S2048x1024_1_0_n_n_0_1_11024 (ix2 p q) startCol 1 = 0 := by
      unfold GatherDims.start
      exact dif_neg (by decide)
    have ho : GatherDims.offCoord gather_S4096x1024_S2048x1_S2048x1024_1_0_n_n_0_1_11024 (ix2 p q) 1 = q.val := by
      unfold GatherDims.offCoord
      rw [dif_pos h1]
      have hX : (gather_S4096x1024_S2048x1_S2048x1024_1_0_n_n_0_1_11024).offsetDims[List.idxOf (1 : Fin 2) (gather_S4096x1024_S2048x1_S2048x1024_1_0_n_n_0_1_11024).sKept]'(by decide) = (1 : Fin 2) := by decide
      rw [hX]
    rw [hs, GatherDims.batchCoord_eq_zero _ _ _ List.not_mem_nil, ho]
    omega

/-! ## The taken rows, and the result -/

/-- Every row is in range, so the select keeps the gathered word: the taken rows are the table's first 2048. -/
theorem takenRows_apply (t : FVec F S4096x1024 .f32) (p : Fin 2048) (q : Fin 1024) :
    takenRows t (ix2 p q) = t (tableAt p q) := by
  have hm : broadcastInDim S2048x1024 ![0] bcast_S2048_S2048x1024_0 inRange (ix2 p q) = 1#1 := by
    unfold broadcastInDim; exact inRange_apply _
  unfold takenRows select
  show Scalar.select (broadcastInDim S2048x1024 ![0] bcast_S2048_S2048x1024_0 inRange (ix2 p q))
    (Host.gather gather_S4096x1024_S2048x1_S2048x1024_1_0_n_n_0_1_11024 t startCol (ix2 p q)) _ = _
  rw [hm, gather_apply]
  unfold Scalar.select
  exact if_pos rfl

/-- The reference's result is x plus the table's first 2048 rows under every batch. -/
theorem refOut_eq (x : FVec F S4x2048x1024 .f32) (t : FVec F S4096x1024 .f32) : refOut x t = posAdd x t := by
  funext i
  obtain ⟨b, p, q, rfl⟩ : ∃ (b : Fin 4) (p : Fin 2048) (q : Fin 1024), i = ix3 b p q := ⟨i 0, i 1, i 2, eq_ix3 i⟩
  rw [posAdd_apply]
  unfold refOut addf
  show FloatOps.addf (x (ix3 b p q)) (broadcastInDim S4x2048x1024 ![0, 1, 2] bcast_S1x2048x1024_S4x2048x1024_0_1_2
    (broadcastInDim S1x2048x1024 ![1, 2] bcast_S2048x1024_S1x2048x1024_1_2 (takenRows t)) (ix3 b p q)) = _
  congr 1
  unfold broadcastInDim
  refine Eq.trans (congrArg (takenRows t) ?_) (takenRows_apply t p q)
  funext a
  match a with
  | ⟨0, _⟩ => rfl
  | ⟨1, _⟩ => rfl

end Cert.ReferenceIdeal.RefSpec

end
-- ==== Proof.lean ====
/-
  The proof of `Cert.Claim`: the positional-encoding kernel against its jnp reference.

  Both programs compute, for x of shape [4, 2048, 1024] and a table of shape [4096, 1024], the array whose entry at
  batch b, row p, column q is x at (b, p, q) plus the table at (p, q).  The kernel does it in four grid points, each
  adding 512 rows of the staged table under the four batches of an x block; the reference takes rows 0 … 2047 of the
  table by a gather at the positions 0 … 2047 (every position non-negative and in range, so its normalisation and its
  range mask change nothing) and adds them under every batch.  Entry by entry the two are the same sum of the same two
  numbers in the same order, so they agree at any reading of the floats, the extended reals included, and the
  precondition is not used.

  The three frames: the kernel's two programs run by the generated frame certificates; the reference's is its run
  (Proof/RefRun.lean, Proof/RefTerm.lean) with the result dropped.  The ideal pass rewrote nothing, so `preserves` is
  `True`.  For `algebraic` the kernel's run names its output array as `Cert.Spec.posAdd` of the arguments
  (Proof/KernelValue.lean) and the reference's run names its result as the staged function `refOut`, which is
  `posAdd` index by index (Proof/RefValue.lean).
-/
import proofs.«103357_g66829691126127_cont_sun_c4_580_9_alg».proof.Defs
import proofs.«103357_g66829691126127_cont_sun_c4_580_9_alg».proof.Proof.Gen.Kernel
import proofs.«103357_g66829691126127_cont_sun_c4_580_9_alg».proof.Proof.Gen.Kernel.Frame
import proofs.«103357_g66829691126127_cont_sun_c4_580_9_alg».proof.Proof.Gen.KernelIdeal
import proofs.«103357_g66829691126127_cont_sun_c4_580_9_alg».proof.Proof.Gen.KernelIdeal.Frame
import proofs.«103357_g66829691126127_cont_sun_c4_580_9_alg».proof.Proof.Gen.ReferenceIdeal
import proofs.«103357_g66829691126127_cont_sun_c4_580_9_alg».proof.Proof.Gen.Pre_finite_inputs
import proofs.«103357_g66829691126127_cont_sun_c4_580_9_alg».proof.Proof.KernelValue
import proofs.«103357_g66829691126127_cont_sun_c4_580_9_alg».proof.Proof.RefTerm
import proofs.«103357_g66829691126127_cont_sun_c4_580_9_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Both runs end at `posAdd` of arguments that agree. -/
theorem algebraic : Cert.algebraic_KernelIdeal_ReferenceIdeal := by
  intro m ρ m' ρ' _ hagree
  refine ⟨_, Cert.KernelIdeal.KernelValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefSpec.refOut_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
